-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 87
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000, .i32⟩
  | 70 => ⟨S850000, .i32⟩
  | 71 => ⟨S850000, .i32⟩
  | 72 => ⟨S50000x64, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x64, .f32⟩
  | 115 => ⟨S850000x1, .f32⟩
  | 116 => ⟨S850000x64, .f32⟩
  | 117 => ⟨S850000x64, .f32⟩
  | 118 => ⟨S_, .f32⟩
  | 119 => ⟨S50000x64, .f32⟩
  | 120 => ⟨S850000x1, .i32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000x1, .f32⟩
  | 3 => ⟨S50000x64, .f32⟩
  | 4 => ⟨S50000x64, .f32⟩
  | 5 => ⟨S50000x64, .f32⟩
  | 6 => ⟨S_, .f32⟩
  | 7 => ⟨S50000, .f32⟩
  | 8 => ⟨S50000x1, .f32⟩
  | 9 => ⟨S50000x1, .f32⟩
  | 10 => ⟨S50000x64, .f32⟩
  | 11 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RefStagesRun.lean ====
/-
  The reference's run, read stage by stage. Its 134 host operations are cut into six stretches — the edge lists; the first
  layer up to its clamp at 0; the edge lists again; the second layer's dense product and norms; its aggregation; the
  row-wise log-softmax — and each stretch is read
  from ANY contents R of the buffers before it: what it leaves in the buffers later operations read is the stage function
  of the arguments, provided the buffers it reads from earlier stretches hold their stages. Chained from the launch
  contents, the result buffer ends at the last stage of the arguments and no argument is written.
-/
import proofs.«101313_j68779606278426_1_alg».proof.Proof.RefOps
import proofs.«101313_j68779606278426_1_alg».proof.Proof.RefRead
import Idealize.ShloMosaic.Lib.Pipeline.Frame

set_option maxRecDepth 16384

noncomputable section

namespace Cert.ReferenceIdeal.StagesRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

abbrev Feat128 (F : FTy → Type) := (⟨S50000x128, .f32⟩ : BufTy).Contents (Elt F)
abbrev Edges (F : FTy → Type) := (⟨S2x800000, .i32⟩ : BufTy).Contents (Elt F)

/-- The edge lists: operations 1 to 7. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The first layer, to its clamp at 0: operations 8 to 63. -/
abbrev opsB : List (HloOp τ sig (Elt F)) :=
  [ binary main_arg0 main_arg2 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf (F := F) .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v5 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v5 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v7 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The edge lists again: operations 64 to 66. -/
abbrev opsC : List (HloOp τ sig (Elt F)) :=
  [ nullary main_v48 (iotaInDim S50000 32 0),
    binary main_v1 main_v48 main_v49 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v48 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The second layer's dense product and its norms: operations 67 to 100. -/
abbrev opsD : List (HloOp τ sig (Elt F)) :=
  [ binary main_v47 main_arg4 main_v51 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v50 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf (F := F) .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select,
    nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v49 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v49 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v49 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v50 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v50 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v50 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)) ]

/-- The second aggregation: operations 101 to 119. -/
abbrev opsE : List (HloOp τ sig (Elt F)) :=
  [ nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v49 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v49 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v49 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v51 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v50 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)) ]

/-- The row-wise log-softmax: operations 120 to 134. -/
abbrev opsG : List (HloOp τ sig (Elt F)) :=
  [ TRef.nullary (TRef.of (T := ⟨S_, .f32⟩) main_call3_cst) (constant S_ .f32 0xFF800000#32),
    TRef.binary (TRef.of (T := ⟨S50000x64, .f32⟩) main_v90) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v90) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v91) subf ]

set_option maxRecDepth 65536 in
theorem ops_eq : (ops : List (HloOp τ sig (Elt F))) = opsA ++ (opsB ++ (opsC ++ (opsD ++ (opsE ++ opsG)))) := rfl

variable (R : Valuation τ sig (Elt F))

/-! ## The edge lists -/

theorem A_v1 : StableHlo.after opsA R (Proc.devRef .tc main_v1) = val_main_v1 (F := F) (R (Proc.devRef .tc main_arg1)) := by
  simp only [opsA]
  after_results <;> rfl
theorem A_v3 : StableHlo.after opsA R (Proc.devRef .tc main_v3) = val_main_v3 (F := F) (R (Proc.devRef .tc main_arg1)) := by
  simp only [opsA]
  after_results <;> rfl
theorem A_v5 : StableHlo.after opsA R (Proc.devRef .tc main_v5) = val_main_v5 (F := F) (R (Proc.devRef .tc main_arg1)) := by
  simp only [opsA]
  after_results <;> rfl
theorem A_v6 : StableHlo.after opsA R (Proc.devRef .tc main_v6) = val_main_v6 (F := F) (R (Proc.devRef .tc main_arg1)) := by
  simp only [opsA]
  after_results <;> rfl
theorem A_keep_arg0 : StableHlo.after opsA R (Proc.devRef .tc main_arg0) = R (Proc.devRef .tc main_arg0) := by
  simp only [opsA]
  after_results <;> rfl
theorem A_keep_arg2 : StableHlo.after opsA R (Proc.devRef .tc main_arg2) = R (Proc.devRef .tc main_arg2) := by
  simp only [opsA]
  after_results <;> rfl
theorem A_keep_arg3 : StableHlo.after opsA R (Proc.devRef .tc main_arg3) = R (Proc.devRef .tc main_arg3) := by
  simp only [opsA]
  after_results <;> rfl
theorem A_keep_arg4 : StableHlo.after opsA R (Proc.devRef .tc main_arg4) = R (Proc.devRef .tc main_arg4) := by
  simp only [opsA]
  after_results <;> rfl
theorem A_keep_arg5 : StableHlo.after opsA R (Proc.devRef .tc main_arg5) = R (Proc.devRef .tc main_arg5) := by
  simp only [opsA]
  after_results <;> rfl

/-! ## The first layer -/

set_option maxHeartbeats 4000000 in
theorem B_v47 (x0 : Feat128 F) (x1 : Edges F) (x2 : (⟨S128x128, .f32⟩ : BufTy).Contents (Elt F)) (x3 : (⟨S128, .f32⟩ : BufTy).Contents (Elt F))
    (h5 : R (Proc.devRef .tc main_v5) = val_main_v5 (F := F) x1) (h6 : R (Proc.devRef .tc main_v6) = val_main_v6 (F := F) x1)
    (h0 : R (Proc.devRef .tc main_arg0) = x0) (h2 : R (Proc.devRef .tc main_arg2) = x2) (h3 : R (Proc.devRef .tc main_arg3) = x3) :
    StableHlo.after opsB R (Proc.devRef .tc main_v47) = val_main_v47 (F := F) x0 x1 x2 x3 := by
  simp only [opsB]
  after_results_simp
  rw [h5, h6, h0, h2, h3]
  rfl
theorem B_keep_v1 : StableHlo.after opsB R (Proc.devRef .tc main_v1) = R (Proc.devRef .tc main_v1) := by
  simp only [opsB]
  after_results_simp <;> rfl
theorem B_keep_v3 : StableHlo.after opsB R (Proc.devRef .tc main_v3) = R (Proc.devRef .tc main_v3) := by
  simp only [opsB]
  after_results_simp <;> rfl
theorem B_keep_arg4 : StableHlo.after opsB R (Proc.devRef .tc main_arg4) = R (Proc.devRef .tc main_arg4) := by
  simp only [opsB]
  after_results_simp <;> rfl
theorem B_keep_arg5 : StableHlo.after opsB R (Proc.devRef .tc main_arg5) = R (Proc.devRef .tc main_arg5) := by
  simp only [opsB]
  after_results_simp <;> rfl

/-! ## The edge lists again -/

theorem C_v49 (x1 : Edges F) (h1 : R (Proc.devRef .tc main_v1) = val_main_v1 (F := F) x1) :
    StableHlo.after opsC R (Proc.devRef .tc main_v49) = val_main_v49 (F := F) x1 := by
  simp only [opsC]
  after_results
  rw [h1]
  rfl
theorem C_v50 (x1 : Edges F) (h3 : R (Proc.devRef .tc main_v3) = val_main_v3 (F := F) x1) :
    StableHlo.after opsC R (Proc.devRef .tc main_v50) = val_main_v50 (F := F) x1 := by
  simp only [opsC]
  after_results
  rw [h3]
  rfl
theorem C_keep_v47 : StableHlo.after opsC R (Proc.devRef .tc main_v47) = R (Proc.devRef .tc main_v47) := by
  simp only [opsC]
  after_results <;> rfl
theorem C_keep_arg4 : StableHlo.after opsC R (Proc.devRef .tc main_arg4) = R (Proc.devRef .tc main_arg4) := by
  simp only [opsC]
  after_results <;> rfl
theorem C_keep_arg5 : StableHlo.after opsC R (Proc.devRef .tc main_arg5) = R (Proc.devRef .tc main_arg5) := by
  simp only [opsC]
  after_results <;> rfl

/-! ## The second layer's dense product and its norms -/

set_option maxHeartbeats 4000000 in
theorem D_v51 (x0 : Feat128 F) (x1 : Edges F) (x2 : (⟨S128x128, .f32⟩ : BufTy).Contents (Elt F)) (x3 : (⟨S128, .f32⟩ : BufTy).Contents (Elt F)) (x4 : (⟨S128x64, .f32⟩ : BufTy).Contents (Elt F))
    (h47 : R (Proc.devRef .tc main_v47) = val_main_v47 (F := F) x0 x1 x2 x3) (h4 : R (Proc.devRef .tc main_arg4) = x4) :
    StableHlo.after opsD R (Proc.devRef .tc main_v51) = val_main_v51 (F := F) x0 x1 x2 x3 x4 := by
  simp only [opsD]
  after_results_simp
  rw [h47, h4]
  rfl

set_option maxHeartbeats 4000000 in
theorem D_v74 (x1 : Edges F) (h49 : R (Proc.devRef .tc main_v49) = val_main_v49 (F := F) x1) (h50 : R (Proc.devRef .tc main_v50) = val_main_v50 (F := F) x1) :
    StableHlo.after opsD R (Proc.devRef .tc main_v74) = val_main_v74 (F := F) x1 := by
  simp only [opsD]
  after_results_simp
  rw [h49, h50]
  rfl
theorem D_keep_v49 : StableHlo.after opsD R (Proc.devRef .tc main_v49) = R (Proc.devRef .tc main_v49) := by
  simp only [opsD]
  after_results_simp <;> rfl
theorem D_keep_v50 : StableHlo.after opsD R (Proc.devRef .tc main_v50) = R (Proc.devRef .tc main_v50) := by
  simp only [opsD]
  after_results_simp <;> rfl
theorem D_keep_arg5 : StableHlo.after opsD R (Proc.devRef .tc main_arg5) = R (Proc.devRef .tc main_arg5) := by
  simp only [opsD]
  after_results_simp <;> rfl

/-! ## The second aggregation -/

set_option maxHeartbeats 4000000 in
theorem E_v90 (x0 : Feat128 F) (x1 : Edges F) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h51 : R (Proc.devRef .tc main_v51) = val_main_v51 (F := F) x0 x1 x2 x3 x4) (h74 : R (Proc.devRef .tc main_v74) = val_main_v74 (F := F) x1)
    (h49 : R (Proc.devRef .tc main_v49) = val_main_v49 (F := F) x1) (h50 : R (Proc.devRef .tc main_v50) = val_main_v50 (F := F) x1) (h5 : R (Proc.devRef .tc main_arg5) = x5) :
    StableHlo.after opsE R (Proc.devRef .tc main_v90) = val_main_v90 (F := F) x0 x1 x2 x3 x4 x5 := by
  simp only [opsE]
  after_results_simp
  rw [h51, h74, h49, h50, h5]
  rfl

/-! ## The row-wise log-softmax -/

/-- Contents carried to a buffer's own type and back are the contents. -/
theorem ofBuf_toBuf {T : BufTy} (x : TRef sig T) (v : T.Contents (Elt F)) : x.ofBuf (x.toBuf v) = v := by
  rcases x with ⟨r, h, _, _⟩
  subst h
  rfl

theorem ofBuf_v90 (v : (⟨S50000x64, .f32⟩ : BufTy).Contents (Elt F)) :
    (TRef.of (T := ⟨S50000x64, .f32⟩) main_v90 : TRef sig ⟨S50000x64, .f32⟩).ofBuf (Val := Elt F) v = v := rfl

theorem toBuf_v91 (v : (⟨S50000x64, .f32⟩ : BufTy).Contents (Elt F)) :
    (TRef.of (T := ⟨S50000x64, .f32⟩) main_v91 : TRef sig ⟨S50000x64, .f32⟩).toBuf (Val := Elt F) v = v := rfl

set_option maxHeartbeats 4000000 in
theorem G_v91 (x0 : Feat128 F) (x1 : Edges F) (x2 : (⟨S128x128, .f32⟩ : BufTy).Contents (Elt F)) (x3 : (⟨S128, .f32⟩ : BufTy).Contents (Elt F)) (x4 : (⟨S128x64, .f32⟩ : BufTy).Contents (Elt F)) (x5 : (⟨S64, .f32⟩ : BufTy).Contents (Elt F))
    (h90 : R (Proc.devRef .tc main_v90) = val_main_v90 (F := F) x0 x1 x2 x3 x4 x5) :
    StableHlo.after opsG R (Proc.devRef .tc main_v91) = val_main_v91 (F := F) x0 x1 x2 x3 x4 x5 := by
  simp only [opsG]
  after_results_simp
  rw [h90]
  simp only [ofBuf_toBuf]
  rw [ofBuf_v90, toBuf_v91]
  rfl

/-! ## The whole run -/

/-- From any contents R, the result buffer ends at the last stage of R's argument arrays. -/
theorem result_eq : StableHlo.after (ops (F := F)) R (Proc.devRef .tc main_v91)
    = val_main_v91 (F := F) (R (Proc.devRef .tc main_arg0)) (R (Proc.devRef .tc main_arg1)) (R (Proc.devRef .tc main_arg2)) (R (Proc.devRef .tc main_arg3)) (R (Proc.devRef .tc main_arg4)) (R (Proc.devRef .tc main_arg5)) := by
  rw [ops_eq, StableHlo.after_append, StableHlo.after_append, StableHlo.after_append, StableHlo.after_append, StableHlo.after_append]
  have h47 : StableHlo.after opsB (StableHlo.after opsA R) (Proc.devRef .tc main_v47)
      = val_main_v47 (F := F) (R (Proc.devRef .tc main_arg0)) (R (Proc.devRef .tc main_arg1)) (R (Proc.devRef .tc main_arg2)) (R (Proc.devRef .tc main_arg3)) :=
    B_v47 _ _ _ _ _ (A_v5 R) (A_v6 R) (A_keep_arg0 R) (A_keep_arg2 R) (A_keep_arg3 R)
  have h49 : StableHlo.after opsC (StableHlo.after opsB (StableHlo.after opsA R)) (Proc.devRef .tc main_v49) = val_main_v49 (F := F) (R (Proc.devRef .tc main_arg1)) :=
    C_v49 _ _ ((B_keep_v1 _).trans (A_v1 R))
  have h50 : StableHlo.after opsC (StableHlo.after opsB (StableHlo.after opsA R)) (Proc.devRef .tc main_v50) = val_main_v50 (F := F) (R (Proc.devRef .tc main_arg1)) :=
    C_v50 _ _ ((B_keep_v3 _).trans (A_v3 R))
  have h4 : StableHlo.after opsC (StableHlo.after opsB (StableHlo.after opsA R)) (Proc.devRef .tc main_arg4) = R (Proc.devRef .tc main_arg4) := by
    rw [C_keep_arg4, B_keep_arg4, A_keep_arg4]
  have h5 : StableHlo.after opsC (StableHlo.after opsB (StableHlo.after opsA R)) (Proc.devRef .tc main_arg5) = R (Proc.devRef .tc main_arg5) := by
    rw [C_keep_arg5, B_keep_arg5, A_keep_arg5]
  refine G_v91 _ _ _ _ _ _ _ (E_v90 _ _ _ _ _ _ _ ?_ ?_ ?_ ?_ ?_)
  · exact D_v51 _ _ _ _ _ _ ((C_keep_v47 _).trans h47) h4
  · exact D_v74 _ _ h49 h50
  · exact (D_keep_v49 _).trans h49
  · exact (D_keep_v50 _).trans h50
  · exact (D_keep_arg5 _).trans h5

set_option maxHeartbeats 4000000 in
theorem ops_keep_arg0 : StableHlo.after (ops (F := F)) R (Proc.devRef .tc main_arg0) = R (Proc.devRef .tc main_arg0) := by
  after_results_simp <;> rfl
set_option maxHeartbeats 4000000 in
theorem ops_keep_arg1 : StableHlo.after (ops (F := F)) R (Proc.devRef .tc main_arg1) = R (Proc.devRef .tc main_arg1) := by
  after_results_simp <;> rfl
set_option maxHeartbeats 4000000 in
theorem ops_keep_arg2 : StableHlo.after (ops (F := F)) R (Proc.devRef .tc main_arg2) = R (Proc.devRef .tc main_arg2) := by
  after_results_simp <;> rfl
set_option maxHeartbeats 4000000 in
theorem ops_keep_arg3 : StableHlo.after (ops (F := F)) R (Proc.devRef .tc main_arg3) = R (Proc.devRef .tc main_arg3) := by
  after_results_simp <;> rfl
set_option maxHeartbeats 4000000 in
theorem ops_keep_arg4 : StableHlo.after (ops (F := F)) R (Proc.devRef .tc main_arg4) = R (Proc.devRef .tc main_arg4) := by
  after_results_simp <;> rfl
set_option maxHeartbeats 4000000 in
theorem ops_keep_arg5 : StableHlo.after (ops (F := F)) R (Proc.devRef .tc main_arg5) = R (Proc.devRef .tc main_arg5) := by
  after_results_simp <;> rfl

set_option maxRecDepth 65536 in
set_option maxHeartbeats 53600000 in
/-- Every weakly fair execution of the reference terminates with the result at the last stage of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = val_main_v91 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_eq _),
      (h c main_arg0).trans (ops_keep_arg0 _),
      (h c main_arg1).trans (ops_keep_arg1 _),
      (h c main_arg2).trans (ops_keep_arg2 _),
      (h c main_arg3).trans (ops_keep_arg3 _),
      (h c main_arg4).trans (ops_keep_arg4 _),
      (h c main_arg5).trans (ops_keep_arg5 _)⟩)
    (run_seq scopedRefs_eq scopedSems_eq defs main (fun _ => ops) main_eq (fun _ => ops_sub) m ρ)

end Cert.ReferenceIdeal.StagesRun

end
-- ==== Proof.Spec.lean ====
/-
  The two-layer graph convolution as a composition of named stages, read off the reference's own operations.

  With s, d the source and destination lists (the edge list with one self loop per node appended) and
  norm e = dinv (s e) · dinv (d e), dinv v = deg v ^ (-1/2) where deg v > 0 and 0 elsewhere, one layer sends a node
  feature matrix Y and a bias b to
      aggregate Y b = scatter-add over e of (Y (s e) · norm e) into row d e, plus b on every row,
  and the network is
      logSoftmaxRows (aggregate64 (denseRelu (aggregate128 (x · W1) b1) W2) b2),
  denseRelu H W = max(H, 0) · W, logSoftmaxRows X = (X − rowmax X) − log Σ exp (X − rowmax X) along each row.
  Each stage below is the reference's term with its dense operand abstracted, so that a dense product computed
  elsewhere (block by block) can be put in its place; the lemmas say the reference's stages are these compositions.
-/
import proofs.«101313_j68779606278426_1_alg».proof.Proof.RefRead

noncomputable section

namespace Cert.Gcn

open Cert.ReferenceIdeal Cert.ReferenceIdeal.Gen Cert.ReferenceIdeal.ReadP Idealize.ShloMosaic Idealize.ShloMosaic.TcCoe Idealize.SL.Sem

variable {F : FTy → Type} [FloatOps F]

abbrev Feat128 (F : FTy → Type) := (⟨S50000x128, .f32⟩ : BufTy).Contents (Elt F)
abbrev Feat64 (F : FTy → Type) := (⟨S50000x64, .f32⟩ : BufTy).Contents (Elt F)
abbrev Edges (F : FTy → Type) := (⟨S2x800000, .i32⟩ : BufTy).Contents (Elt F)

/-- The first layer's dense product x · W1. -/
def dense1 (x : Feat128 F) (w : (⟨S128x128, .f32⟩ : BufTy).Contents (Elt F)) : Feat128 F :=
  Host.dotGeneral dot_S50000x128_S128x128_S50000x128_1_0_0_1_n_n none x w

/-- One aggregation over the edges at width 128: gather the rows of Y at the sources, scale each by its edge's norm,
    scatter-add into the destinations, add the bias row. -/
def aggregate128 (y : Feat128 F) (e : Edges F) (b : (⟨S128, .f32⟩ : BufTy).Contents (Elt F)) : Feat128 F :=
  addf (Host.scatterAdd scatter_S50000x128_S850000x1_S850000x128_1_0_0_1 (val_main_v41 (F := F)) (val_main_v42 (F := F) e)
    (mulf (Host.gather gather_S50000x128_S850000x1_S850000x128_1_0_n_n_0_1_1128 y (val_main_v36 (F := F) e)) (val_main_v39 (F := F) e)))
    (val_main_v45 (F := F) b)

/-- The second layer's dense product max(H, 0) · W2. -/
def denseRelu (h : Feat128 F) (w : (⟨S128x64, .f32⟩ : BufTy).Contents (Elt F)) : Feat64 F :=
  Host.dotGeneral dot_S50000x128_S128x64_S50000x64_1_0_0_1_n_n none (maximumf h (val_main_call1_v0 (F := F))) w

/-- The same aggregation at width 64 (the reference recomputes the edge lists and the norms for its second layer:
    the stages it names for them are the first layer's, `src_again`, `dst_again`, `norm_again` below). -/
def aggregate64 (y : Feat64 F) (e : Edges F) (b : (⟨S64, .f32⟩ : BufTy).Contents (Elt F)) : Feat64 F :=
  addf (Host.scatterAdd scatter_S50000x64_S850000x1_S850000x64_1_0_0_1 (val_main_v85 (F := F)) (val_main_v86 (F := F) e)
    (mulf (Host.gather gather_S50000x64_S850000x1_S850000x64_1_0_n_n_0_1_164 y (val_main_v80 (F := F) e)) (val_main_v83 (F := F) e)))
    (val_main_v89 (F := F) b)

/-- Each row's maximum (from −∞), on every entry of the row. -/
def rowMax (x : Feat64 F) : Feat64 F :=
  broadcastInDim S50000x64 ![0, 1] bcast_S50000x1_S50000x64_0_1 (broadcastInDim S50000x1 ![0] bcast_S50000_S50000x1_0
    (maximumf (val_main_call3_v1 (F := F)) (Host.reduce FloatOps.maximumf x (val_main_call3_cst (F := F)) reducesTo_S50000x64_S50000_d1 h_S_)))

/-- log-softmax along each row: (x − rowmax) − log Σ exp (x − rowmax). -/
def logSoftmaxRows (x : Feat64 F) : Feat64 F :=
  subf (subf x (rowMax x)) (broadcastInDim S50000x64 ![0, 1] bcast_S50000x1_S50000x64_0_1 (Host.log (broadcastInDim S50000x1 ![0] bcast_S50000_S50000x1_0
    (Host.reduceAdd (Host.exp (subf x (rowMax x))) (val_main_call3_cst_1 (F := F)) reducesTo_S50000x64_S50000_d1 h_S_))))

variable (x0 : Feat128 F) (x1 : Edges F) (x2 : (⟨S128x128, .f32⟩ : BufTy).Contents (Elt F)) (x3 : (⟨S128, .f32⟩ : BufTy).Contents (Elt F))
  (x4 : (⟨S128x64, .f32⟩ : BufTy).Contents (Elt F)) (x5 : (⟨S64, .f32⟩ : BufTy).Contents (Elt F))

theorem v7_eq : val_main_v7 (F := F) x0 x2 = dense1 x0 x2 := rfl

theorem v46_eq : val_main_v46 (F := F) x0 x1 x2 x3 = aggregate128 (dense1 x0 x2) x1 x3 := by
  unfold val_main_v46 val_main_v43 val_main_v40 val_main_v37 aggregate128; rfl

theorem v51_eq : val_main_v51 (F := F) x0 x1 x2 x3 x4 = denseRelu (val_main_v46 (F := F) x0 x1 x2 x3) x4 := by
  unfold val_main_v51 val_main_v47 denseRelu; rfl

theorem v90_eq : val_main_v90 (F := F) x0 x1 x2 x3 x4 x5 = aggregate64 (val_main_v51 (F := F) x0 x1 x2 x3 x4) x1 x5 := by
  unfold val_main_v90 val_main_v87 val_main_v84 val_main_v81 aggregate64; rfl

theorem v91_eq : val_main_v91 (F := F) x0 x1 x2 x3 x4 x5 = logSoftmaxRows (val_main_v90 (F := F) x0 x1 x2 x3 x4 x5) := by
  unfold val_main_v91 val_main_call3_v10 val_main_call3_v9 val_main_call3_v8 val_main_call3_v7 val_main_call3_v6 val_main_call3_v5
    val_main_call3_v4 val_main_call3_v3 val_main_call3_v2 val_main_call3_v0 logSoftmaxRows rowMax
  generalize val_main_v90 (F := F) x0 x1 x2 x3 x4 x5 = y
  rfl

/-! ## The second layer's lists and norms are the first layer's

The reference builds the source and destination lists and the norms a second time for its second layer, by the same
operations of the same edge list: the stages it names for them are the first layer's. -/

theorem src_again : val_main_v49 (F := F) x1 = val_main_v5 (F := F) x1 := rfl
theorem dst_again : val_main_v50 (F := F) x1 = val_main_v6 (F := F) x1 := rfl

theorem deg_again : val_main_v55 (F := F) x1 = val_main_v11 (F := F) x1 := by
  unfold val_main_v55 val_main_v11 val_main_v54 val_main_v10
  rw [dst_again]; rfl

theorem dinv_again : val_main_v59 (F := F) x1 = val_main_v15 (F := F) x1 := by
  unfold val_main_v59 val_main_v15 val_main_v57 val_main_v13 val_main_v58 val_main_v14
  rw [deg_again]; rfl

theorem src_wrapped_again : val_main_v65 (F := F) x1 = val_main_v21 (F := F) x1 := by
  unfold val_main_v65 val_main_v21 val_main_v64 val_main_v20 val_main_v61 val_main_v17 val_main_v63 val_main_v19
  rw [src_again]; rfl

theorem dst_wrapped_again : val_main_v72 (F := F) x1 = val_main_v28 (F := F) x1 := by
  unfold val_main_v72 val_main_v28 val_main_v71 val_main_v27 val_main_v68 val_main_v24 val_main_v70 val_main_v26
  rw [dst_again]; rfl

theorem norm_again : val_main_v74 (F := F) x1 = val_main_v30 (F := F) x1 := by
  unfold val_main_v74 val_main_v30 val_main_v66 val_main_v22 val_main_v73 val_main_v29
  rw [dinv_again, src_wrapped_again, dst_wrapped_again]

/-- The whole network as the composition of its stages. -/
theorem network_eq : val_main_v91 (F := F) x0 x1 x2 x3 x4 x5
    = logSoftmaxRows (aggregate64 (denseRelu (aggregate128 (dense1 x0 x2) x1 x3) x4) x1 x5) := by
  rw [v91_eq, v90_eq, v51_eq, v46_eq]

end Cert.Gcn

end
-- ==== Proof.HostStages.lean ====
/-
  The host operations between the kernel regions, read stage by stage. Before the first region the host builds, from the
  edge list alone, the source and destination lists (each edge, then one self loop per node) and each edge's norm
  dinv (src) · dinv (dst); between the regions it gathers the dense product's rows at the sources, scales them by the
  norms, scatter-adds them into the destinations and adds the bias. Each boundary's buffers are stated as the stage
  functions of the launch arrays; a buffer no operation of a stretch writes is carried across it unchanged.
-/
import proofs.«101313_j68779606278426_1_alg».proof.Proof.Gen.KernelIdeal.Frame
import proofs.«101313_j68779606278426_1_alg».proof.Proof.Spec
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo
open Cert.ReferenceIdeal.ReadP Cert.Gcn

variable {F : FTy → Type} [FloatOps F]
variable (m : (ℓ : Loc nD τ sig) → Buf (Elt F) ℓ) (ρ : Dev nD → PrngReg) (c : Dev nD)

/-! ## The first stretch: the edge lists, the degrees' comparison and inverse square root -/

theorem W1_v5 : W1 m ρ c (Proc.devRef .tc main_v5) = val_main_v5 (F := F) (m ((c : Thread nD τ).loc main_arg1)) := by
  show StableHlo.after hostOps0 (W0 m ρ c) (Proc.devRef .tc main_v5) = _
  simp only [hostOps0]
  after_results <;> rfl

theorem W1_v6 : W1 m ρ c (Proc.devRef .tc main_v6) = val_main_v6 (F := F) (m ((c : Thread nD τ).loc main_arg1)) := by
  show StableHlo.after hostOps0 (W0 m ρ c) (Proc.devRef .tc main_v6) = _
  simp only [hostOps0]
  after_results <;> rfl

/-- deg > 0 -/
theorem W1_v12 : W1 m ρ c (Proc.devRef .tc main_v12) = val_main_v13 (F := F) (m ((c : Thread nD τ).loc main_arg1)) := by
  show StableHlo.after hostOps0 (W0 m ρ c) (Proc.devRef .tc main_v12) = _
  simp only [hostOps0]
  after_results <;> rfl

/-- deg ^ (-1/2) -/
theorem W1_v13 : W1 m ρ c (Proc.devRef .tc main_v13) = val_main_v14 (F := F) (m ((c : Thread nD τ).loc main_arg1)) := by
  show StableHlo.after hostOps0 (W0 m ρ c) (Proc.devRef .tc main_v13) = _
  simp only [hostOps0]
  after_results <;> rfl

theorem W1_cst_2 : W1 m ρ c (Proc.devRef .tc main_cst_2) = val_main_cst_2 (F := F) := by
  show StableHlo.after hostOps0 (W0 m ρ c) (Proc.devRef .tc main_cst_2) = _
  simp only [hostOps0]
  after_results <;> rfl

theorem W1_arg0 : W1 m ρ c (Proc.devRef .tc main_arg0) = W0 m ρ c (Proc.devRef .tc main_arg0) := by
  show StableHlo.after hostOps0 (W0 m ρ c) (Proc.devRef .tc main_arg0) = _
  simp only [hostOps0]
  after_results <;> rfl
theorem W1_arg2 : W1 m ρ c (Proc.devRef .tc main_arg2) = W0 m ρ c (Proc.devRef .tc main_arg2) := by
  show StableHlo.after hostOps0 (W0 m ρ c) (Proc.devRef .tc main_arg2) = _
  simp only [hostOps0]
  after_results <;> rfl
theorem W1_arg3 : W1 m ρ c (Proc.devRef .tc main_arg3) = W0 m ρ c (Proc.devRef .tc main_arg3) := by
  show StableHlo.after hostOps0 (W0 m ρ c) (Proc.devRef .tc main_arg3) = _
  simp only [hostOps0]
  after_results <;> rfl
theorem W1_arg4 : W1 m ρ c (Proc.devRef .tc main_arg4) = W0 m ρ c (Proc.devRef .tc main_arg4) := by
  show StableHlo.after hostOps0 (W0 m ρ c) (Proc.devRef .tc main_arg4) = _
  simp only [hostOps0]
  after_results <;> rfl
theorem W1_arg5 : W1 m ρ c (Proc.devRef .tc main_arg5) = W0 m ρ c (Proc.devRef .tc main_arg5) := by
  show StableHlo.after hostOps0 (W0 m ρ c) (Proc.devRef .tc main_arg5) = _
  simp only [hostOps0]
  after_results <;> rfl

/-! ## The select: dinv is deg ^ (-1/2) where deg > 0 and 0 elsewhere -/

set_option maxHeartbeats 2000000 in
theorem W2_v14 : W2 m ρ c (Proc.devRef .tc main_v14) = val_main_v15 (F := F) (m ((c : Thread nD τ).loc main_arg1)) := by
  show StableHlo.after hostOps0_1 (W1 m ρ c) (Proc.devRef .tc main_v14) = _
  generalize hR : W1 m ρ c = R
  simp only [hostOps0_1]
  after_results
  subst hR
  rw [W1_v12, W1_v13, W1_cst_2]
  rfl

theorem W2_v5 : W2 m ρ c (Proc.devRef .tc main_v5) = W1 m ρ c (Proc.devRef .tc main_v5) := by
  show StableHlo.after hostOps0_1 (W1 m ρ c) (Proc.devRef .tc main_v5) = _
  generalize W1 m ρ c = R
  simp only [hostOps0_1]
  after_results <;> rfl
theorem W2_v6 : W2 m ρ c (Proc.devRef .tc main_v6) = W1 m ρ c (Proc.devRef .tc main_v6) := by
  show StableHlo.after hostOps0_1 (W1 m ρ c) (Proc.devRef .tc main_v6) = _
  generalize W1 m ρ c = R
  simp only [hostOps0_1]
  after_results <;> rfl
theorem W2_arg0 : W2 m ρ c (Proc.devRef .tc main_arg0) = W1 m ρ c (Proc.devRef .tc main_arg0) := by
  show StableHlo.after hostOps0_1 (W1 m ρ c) (Proc.devRef .tc main_arg0) = _
  generalize W1 m ρ c = R
  simp only [hostOps0_1]
  after_results <;> rfl
theorem W2_arg2 : W2 m ρ c (Proc.devRef .tc main_arg2) = W1 m ρ c (Proc.devRef .tc main_arg2) := by
  show StableHlo.after hostOps0_1 (W1 m ρ c) (Proc.devRef .tc main_arg2) = _
  generalize W1 m ρ c = R
  simp only [hostOps0_1]
  after_results <;> rfl
theorem W2_arg3 : W2 m ρ c (Proc.devRef .tc main_arg3) = W1 m ρ c (Proc.devRef .tc main_arg3) := by
  show StableHlo.after hostOps0_1 (W1 m ρ c) (Proc.devRef .tc main_arg3) = _
  generalize W1 m ρ c = R
  simp only [hostOps0_1]
  after_results <;> rfl
theorem W2_arg4 : W2 m ρ c (Proc.devRef .tc main_arg4) = W1 m ρ c (Proc.devRef .tc main_arg4) := by
  show StableHlo.after hostOps0_1 (W1 m ρ c) (Proc.devRef .tc main_arg4) = _
  generalize W1 m ρ c = R
  simp only [hostOps0_1]
  after_results <;> rfl
theorem W2_arg5 : W2 m ρ c (Proc.devRef .tc main_arg5) = W1 m ρ c (Proc.devRef .tc main_arg5) := by
  show StableHlo.after hostOps0_1 (W1 m ρ c) (Proc.devRef .tc main_arg5) = _
  generalize W1 m ρ c = R
  simp only [hostOps0_1]
  after_results <;> rfl

/-! ## The norms: dinv gathered at the (wrapped) sources times dinv gathered at the (wrapped) destinations -/

set_option maxHeartbeats 2000000 in
theorem W3_v29 : W3 m ρ c (Proc.devRef .tc main_v29) = val_main_v30 (F := F) (m ((c : Thread nD τ).loc main_arg1)) := by
  show StableHlo.after hostOps0_2 (W2 m ρ c) (Proc.devRef .tc main_v29) = _
  generalize hR : W2 m ρ c = R
  simp only [hostOps0_2]
  after_results
  subst hR
  rw [W2_v14, W2_v5, W2_v6, W1_v5, W1_v6]
  rfl

theorem W3_v5 : W3 m ρ c (Proc.devRef .tc main_v5) = W2 m ρ c (Proc.devRef .tc main_v5) := by
  show StableHlo.after hostOps0_2 (W2 m ρ c) (Proc.devRef .tc main_v5) = _
  generalize W2 m ρ c = R
  simp only [hostOps0_2]
  after_results <;> rfl
theorem W3_v6 : W3 m ρ c (Proc.devRef .tc main_v6) = W2 m ρ c (Proc.devRef .tc main_v6) := by
  show StableHlo.after hostOps0_2 (W2 m ρ c) (Proc.devRef .tc main_v6) = _
  generalize W2 m ρ c = R
  simp only [hostOps0_2]
  after_results <;> rfl
theorem W3_arg0 : W3 m ρ c (Proc.devRef .tc main_arg0) = W2 m ρ c (Proc.devRef .tc main_arg0) := by
  show StableHlo.after hostOps0_2 (W2 m ρ c) (Proc.devRef .tc main_arg0) = _
  generalize W2 m ρ c = R
  simp only [hostOps0_2]
  after_results <;> rfl
theorem W3_arg2 : W3 m ρ c (Proc.devRef .tc main_arg2) = W2 m ρ c (Proc.devRef .tc main_arg2) := by
  show StableHlo.after hostOps0_2 (W2 m ρ c) (Proc.devRef .tc main_arg2) = _
  generalize W2 m ρ c = R
  simp only [hostOps0_2]
  after_results <;> rfl
theorem W3_arg3 : W3 m ρ c (Proc.devRef .tc main_arg3) = W2 m ρ c (Proc.devRef .tc main_arg3) := by
  show StableHlo.after hostOps0_2 (W2 m ρ c) (Proc.devRef .tc main_arg3) = _
  generalize W2 m ρ c = R
  simp only [hostOps0_2]
  after_results <;> rfl
theorem W3_arg4 : W3 m ρ c (Proc.devRef .tc main_arg4) = W2 m ρ c (Proc.devRef .tc main_arg4) := by
  show StableHlo.after hostOps0_2 (W2 m ρ c) (Proc.devRef .tc main_arg4) = _
  generalize W2 m ρ c = R
  simp only [hostOps0_2]
  after_results <;> rfl
theorem W3_arg5 : W3 m ρ c (Proc.devRef .tc main_arg5) = W2 m ρ c (Proc.devRef .tc main_arg5) := by
  show StableHlo.after hostOps0_2 (W2 m ρ c) (Proc.devRef .tc main_arg5) = _
  generalize W2 m ρ c = R
  simp only [hostOps0_2]
  after_results <;> rfl

/-! ## What the first region finds, and what it leaves alone -/

theorem V3_arg0 : V3 m ρ c main_arg0 = m ((c : Thread nD τ).loc main_arg0) :=
  (W3_arg0 m ρ c).trans ((W2_arg0 m ρ c).trans ((W1_arg0 m ρ c).trans rfl))
theorem V3_arg2 : V3 m ρ c main_arg2 = m ((c : Thread nD τ).loc main_arg2) :=
  (W3_arg2 m ρ c).trans ((W2_arg2 m ρ c).trans ((W1_arg2 m ρ c).trans rfl))

theorem W4_v5 : W4 m ρ c (Proc.devRef .tc main_v5) = val_main_v5 (F := F) (m ((c : Thread nD τ).loc main_arg1)) :=
  (W4_of_ne m ρ c main_v5 (by decide)).trans ((W3_v5 m ρ c).trans ((W2_v5 m ρ c).trans (W1_v5 m ρ c)))
theorem W4_v6 : W4 m ρ c (Proc.devRef .tc main_v6) = val_main_v6 (F := F) (m ((c : Thread nD τ).loc main_arg1)) :=
  (W4_of_ne m ρ c main_v6 (by decide)).trans ((W3_v6 m ρ c).trans ((W2_v6 m ρ c).trans (W1_v6 m ρ c)))
theorem W4_v29 : W4 m ρ c (Proc.devRef .tc main_v29) = val_main_v30 (F := F) (m ((c : Thread nD τ).loc main_arg1)) :=
  (W4_of_ne m ρ c main_v29 (by decide)).trans (W3_v29 m ρ c)
theorem W4_arg3 : W4 m ρ c (Proc.devRef .tc main_arg3) = m ((c : Thread nD τ).loc main_arg3) :=
  (W4_of_ne m ρ c main_arg3 (by decide)).trans ((W3_arg3 m ρ c).trans ((W2_arg3 m ρ c).trans ((W1_arg3 m ρ c).trans rfl)))
theorem W4_arg4 : W4 m ρ c (Proc.devRef .tc main_arg4) = m ((c : Thread nD τ).loc main_arg4) :=
  (W4_of_ne m ρ c main_arg4 (by decide)).trans ((W3_arg4 m ρ c).trans ((W2_arg4 m ρ c).trans ((W1_arg4 m ρ c).trans rfl)))
theorem W4_arg5 : W4 m ρ c (Proc.devRef .tc main_arg5) = m ((c : Thread nD τ).loc main_arg5) :=
  (W4_of_ne m ρ c main_arg5 (by decide)).trans ((W3_arg5 m ρ c).trans ((W2_arg5 m ρ c).trans ((W1_arg5 m ρ c).trans rfl)))

/-! ## The first aggregation -/

set_option maxHeartbeats 2000000 in
theorem W5_v46 : W5 m ρ c (Proc.devRef .tc main_v46)
    = aggregate128 (F := F) (W4 m ρ c (Proc.devRef .tc main_v30)) (m ((c : Thread nD τ).loc main_arg1)) (m ((c : Thread nD τ).loc main_arg3)) := by
  show StableHlo.after hostOps1 (W4 m ρ c) (Proc.devRef .tc main_v46) = _
  simp only [hostOps1]
  after_results
  rw [W4_v5, W4_v6, W4_v29, W4_arg3]
  rfl

theorem W5_v5 : W5 m ρ c (Proc.devRef .tc main_v5) = W4 m ρ c (Proc.devRef .tc main_v5) := by
  show StableHlo.after hostOps1 (W4 m ρ c) (Proc.devRef .tc main_v5) = _
  generalize W4 m ρ c = R
  simp only [hostOps1]
  after_results <;> rfl
theorem W5_v6 : W5 m ρ c (Proc.devRef .tc main_v6) = W4 m ρ c (Proc.devRef .tc main_v6) := by
  show StableHlo.after hostOps1 (W4 m ρ c) (Proc.devRef .tc main_v6) = _
  generalize W4 m ρ c = R
  simp only [hostOps1]
  after_results <;> rfl
theorem W5_v29 : W5 m ρ c (Proc.devRef .tc main_v29) = W4 m ρ c (Proc.devRef .tc main_v29) := by
  show StableHlo.after hostOps1 (W4 m ρ c) (Proc.devRef .tc main_v29) = _
  generalize W4 m ρ c = R
  simp only [hostOps1]
  after_results <;> rfl
theorem W5_arg4 : W5 m ρ c (Proc.devRef .tc main_arg4) = W4 m ρ c (Proc.devRef .tc main_arg4) := by
  show StableHlo.after hostOps1 (W4 m ρ c) (Proc.devRef .tc main_arg4) = _
  generalize W4 m ρ c = R
  simp only [hostOps1]
  after_results <;> rfl
theorem W5_arg5 : W5 m ρ c (Proc.devRef .tc main_arg5) = W4 m ρ c (Proc.devRef .tc main_arg5) := by
  show StableHlo.after hostOps1 (W4 m ρ c) (Proc.devRef .tc main_arg5) = _
  generalize W4 m ρ c = R
  simp only [hostOps1]
  after_results <;> rfl

theorem V5_arg4 : V5 m ρ c main_arg4 = m ((c : Thread nD τ).loc main_arg4) := (W5_arg4 m ρ c).trans (W4_arg4 m ρ c)

theorem W6_v5 : W6 m ρ c (Proc.devRef .tc main_v5) = val_main_v5 (F := F) (m ((c : Thread nD τ).loc main_arg1)) :=
  (W6_of_ne m ρ c main_v5 (by decide)).trans ((W5_v5 m ρ c).trans (W4_v5 m ρ c))
theorem W6_v6 : W6 m ρ c (Proc.devRef .tc main_v6) = val_main_v6 (F := F) (m ((c : Thread nD τ).loc main_arg1)) :=
  (W6_of_ne m ρ c main_v6 (by decide)).trans ((W5_v6 m ρ c).trans (W4_v6 m ρ c))
theorem W6_v29 : W6 m ρ c (Proc.devRef .tc main_v29) = val_main_v30 (F := F) (m ((c : Thread nD τ).loc main_arg1)) :=
  (W6_of_ne m ρ c main_v29 (by decide)).trans ((W5_v29 m ρ c).trans (W4_v29 m ρ c))
theorem W6_arg5 : W6 m ρ c (Proc.devRef .tc main_arg5) = m ((c : Thread nD τ).loc main_arg5) :=
  (W6_of_ne m ρ c main_arg5 (by decide)).trans ((W5_arg5 m ρ c).trans (W4_arg5 m ρ c))

/-! ## The second aggregation (over the same lists and norms: `Cert.Gcn.src_again`, `dst_again`, `norm_again`) -/

set_option maxHeartbeats 2000000 in
theorem W7_v63 : W7 m ρ c (Proc.devRef .tc main_v63)
    = aggregate64 (F := F) (W6 m ρ c (Proc.devRef .tc main_v47)) (m ((c : Thread nD τ).loc main_arg1)) (m ((c : Thread nD τ).loc main_arg5)) := by
  show StableHlo.after hostOps2 (W6 m ρ c) (Proc.devRef .tc main_v63) = _
  simp only [hostOps2]
  after_results
  rw [W6_v5, W6_v6, W6_v29, W6_arg5]
  unfold aggregate64 val_main_v86 val_main_v80 val_main_v79 val_main_v76 val_main_v78 val_main_v83 val_main_v82
  rw [dst_again, src_again, norm_again]
  rfl

end Cert.KernelIdeal.HostStages

end
-- ==== Proof.DenseBlocks1.lean ====
/-
  The first dense product, block by block. The pipeline cuts x into ten blocks of 5000 rows, multiplies each by the whole
  W1 into a zero accumulator and writes the product back to the same rows; the blocks tile the array, so the array ends
  holding x · W1: entry (r, j) is the sum over k of x (r, k) · W1 (k, j), whichever block r falls in.
-/
import proofs.«101313_j68779606278426_1_alg».proof.Proof.Gen.KernelIdeal.Frame
import proofs.«101313_j68779606278426_1_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

namespace Dense1

open Idealize.ShloMosaic.ValueIdx

/-- The offsets of a whole-buffer access are all zero. -/
theorem zero_offsets : (![0, 0] : Fin 2 → Nat) = fun _ => 0 := funext fun a => by fin_cases a <;> rfl

/-! ## The product of one block -/

/-- The block product reads its left operand at the output's row … -/
theorem lhs_row (i : S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin S5000x128.rank) ∈ Cert.KernelIdeal.dot_S5000x128_S128x128_S5000x128_1_0_0_1_n_n.lhsBatch by decide), dif_pos (show (0 : Fin S5000x128.rank) ∈ Cert.KernelIdeal.dot_S5000x128_S128x128_S5000x128_1_0_0_1_n_n.lhsNonContracting by decide)]
  rfl
/-- … and the summation index as its column; -/
theorem lhs_col (i : S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
/-- its right operand at the summation index as its row … -/
theorem rhs_row (i : S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
/-- … and the output's column. -/
theorem rhs_col (i : S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin S128x128.rank) ∈ Cert.KernelIdeal.dot_S5000x128_S128x128_S5000x128_1_0_0_1_n_n.rhsBatch by decide), dif_pos (show (1 : Fin S128x128.rank) ∈ Cert.KernelIdeal.dot_S5000x128_S128x128_S5000x128_1_0_0_1_n_n.rhsNonContracting by decide)]
  rfl

/-- Entry (p, q) of a block's product into the zero accumulator: row p of the block against column q of the weights. -/
theorem block_entry (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply Cert.KernelIdeal.dot_S5000x128_S128x128_S5000x128_1_0_0_1_n_n none x0 x1 (ix2 p q)).trans ?_
  rw [← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((ValueIdx.contrEquiv1 Cert.KernelIdeal.dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : Cert.KernelIdeal.dot_S5000x128_S128x128_S5000x128_1_0_0_1_n_n.rhsIdx (ix2 p q) ((ValueIdx.contrEquiv1 Cert.KernelIdeal.dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- Entry (r, j) of the whole product: row r of x against column j of W1. -/
theorem product_entry (x : Cert.Gcn.Feat128 Ideal) (w : (⟨Cert.ReferenceIdeal.S128x128, .f32⟩ : BufTy).Contents (Elt Ideal))
    (i : Cert.ReferenceIdeal.S50000x128.Idx) :
    Cert.Gcn.dense1 (F := Ideal) x w i = ∑ k : Fin 128, x (Cert.ReferenceIdeal.ReadP.lidx_main_v7 i k) * w (Cert.ReferenceIdeal.ReadP.ridx_main_v7 i k) :=
  (congrFun (Cert.Gcn.v7_eq (F := Ideal) x w) i).symm.trans (Cert.ReferenceIdeal.ReadP.val_main_v7_apply x w i)

/-! ## From the blocks to the array -/

/-- Where each window's block sits at grid point t: the window on x and the output's at block t of the rows, all
    columns; the window on W1 at the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product x · W1: the block of x it multiplies is the same rows
    of x, and the block of W1 is all of W1. -/
theorem written_block (c : Dev nD) (t : Fin cfg0.N) :
    (dat0 (F := Ideal) V c).flushed 2 t
      = ((cfg0.win 2).blk t).view.read (Elt Ideal) (Cert.Gcn.dense1 (F := Ideal) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.dense1 (F := Ideal) (V c main_arg0) (V c main_arg2) (((cfg0.win 2).blk t).view.emb (ix2 p q))
  refine (block_entry (iblk0 V c 0 t) (iblk0 V c 1 t) p q).trans ?_
  refine Eq.trans ?_ (product_entry (V c main_arg0) (V c main_arg2) _).symm
  refine Finset.sum_congr rfl fun k _ => ?_
  have hl : (iblk0 V c 0 t : Vec Ideal S5000x128 .f32) (ix2 p k)
      = (V c main_arg0 : Cert.Gcn.Feat128 Ideal) (Cert.ReferenceIdeal.ReadP.lidx_main_v7 (((cfg0.win 2).blk t).view.emb (ix2 p q)) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hr : (iblk0 V c 1 t : Vec Ideal S128x128 .f32) (ix2 k q)
      = (V c main_arg2 : (⟨Cert.ReferenceIdeal.S128x128, .f32⟩ : BufTy).Contents (Elt Ideal)) (Cert.ReferenceIdeal.ReadP.ridx_main_v7 (((cfg0.win 2).blk t).view.emb (ix2 p q)) k) := by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]

/-- An entry of the array is in grid point t's block iff each of its coordinates is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks tile the array: row r is in the block of grid point r / 5000. -/
theorem rows_tiled (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show (i 0).val / 5000 < 10; omega
  obtain ⟨e0, e1, e2, e3, e4, e5⟩ := block_indices ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]
    omega

end Dense1

/-- After the ten write-backs the output array is the whole product of the two input arrays as the region found them. -/
theorem region0_array (c : Dev nD) :
    (dat0 (F := Ideal) V c).arrAt 2 cfg0.N = Cert.Gcn.dense1 (F := Ideal) (V c main_arg0) (V c main_arg2) :=
  (dat0 (F := Ideal) V c).arrAt_eq_of_cover 2 (Cert.Gcn.dense1 (F := Ideal) (V c main_arg0) (V c main_arg2))
    (fun t _ => Dense1.written_block V c t) Dense1.rows_tiled

end Cert.KernelIdeal.Blocks

end
-- ==== Proof.DenseBlocks2.lean ====
/-
  The second dense product, block by block: each block of 5000 rows of H is clamped below at 0 and multiplied by the whole
  W2 into a zero accumulator; the blocks tile the array, so the array ends holding max(H, 0) · W2.
-/
import proofs.«101313_j68779606278426_1_alg».proof.Proof.Gen.KernelIdeal.Frame
import proofs.«101313_j68779606278426_1_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

namespace Dense2

open Idealize.ShloMosaic.ValueIdx

/-- The offsets of a whole-buffer access are all zero. -/
theorem zero_offsets : (![0, 0] : Fin 2 → Nat) = fun _ => 0 := funext fun a => by fin_cases a <;> rfl

/-! ## The product of one block -/

/-- The block product reads its left operand at the output's row … -/
theorem lhs_row (i : S5000x64.Idx) (q : Cert.KernelIdeal.dot_S5000x128_S128x64_S5000x64_1_0_0_1_n_n.contr.Idx) :
    (Cert.KernelIdeal.dot_S5000x128_S128x64_S5000x64_1_0_0_1_n_n.lhsIdx i q 0).val = (i 0).val := by
  unfold DotDims.lhsIdx
  rw [dif_neg (show ¬(0 : Fin S5000x128.rank) ∈ Cert.KernelIdeal.dot_S5000x128_S128x64_S5000x64_1_0_0_1_n_n.lhsBatch by decide), dif_pos (show (0 : Fin S5000x128.rank) ∈ Cert.KernelIdeal.dot_S5000x128_S128x64_S5000x64_1_0_0_1_n_n.lhsNonContracting by decide)]
  rfl
/-- … and the summation index as its column; -/
theorem lhs_col (i : S5000x64.Idx) (q : Cert.KernelIdeal.dot_S5000x128_S128x64_S5000x64_1_0_0_1_n_n.contr.Idx) :
    (Cert.KernelIdeal.dot_S5000x128_S128x64_S5000x64_1_0_0_1_n_n.lhsIdx i q 1).val = (q ⟨0, by decide⟩).val :=
  Cert.KernelIdeal.dot_S5000x128_S128x64_S5000x64_1_0_0_1_n_n.lhsIdx_val_of_single rfl i q
/-- its right operand at the summation index as its row … -/
theorem rhs_row (i : S5000x64.Idx) (q : Cert.KernelIdeal.dot_S5000x128_S128x64_S5000x64_1_0_0_1_n_n.contr.Idx) :
    (Cert.KernelIdeal.dot_S5000x128_S128x64_S5000x64_1_0_0_1_n_n.rhsIdx i q 0).val = (q ⟨0, by decide⟩).val :=
  Cert.KernelIdeal.dot_S5000x128_S128x64_S5000x64_1_0_0_1_n_n.rhsIdx_val_of_single rfl i q
/-- … and the output's column. -/
theorem rhs_col (i : S5000x64.Idx) (q : Cert.KernelIdeal.dot_S5000x128_S128x64_S5000x64_1_0_0_1_n_n.contr.Idx) :
    (Cert.KernelIdeal.dot_S5000x128_S128x64_S5000x64_1_0_0_1_n_n.rhsIdx i q 1).val = (i 1).val := by
  unfold DotDims.rhsIdx
  rw [dif_neg (show ¬(1 : Fin S128x64.rank) ∈ Cert.KernelIdeal.dot_S5000x128_S128x64_S5000x64_1_0_0_1_n_n.rhsBatch by decide), dif_pos (show (1 : Fin S128x64.rank) ∈ Cert.KernelIdeal.dot_S5000x128_S128x64_S5000x64_1_0_0_1_n_n.rhsNonContracting by decide)]
  rfl

/-- Entry (p, q) of a block's clamped product into the zero accumulator: row p of the block, each entry clamped below at
    zero, against column q of the weights. -/
theorem block_entry (x0 : Vec Ideal S5000x128 .f32) (x1 : Vec Ideal S128x64 .f32) (p : Fin 5000) (q : Fin 64) :
    k1_pay1 (F := Ideal) x0 x1 (ix2 p q)
      = ∑ k : Fin 128, max (x0 (ix2 p k)) (FloatOps.ofBits (F := Ideal) .f32 0x00000000#32) * x1 (ix2 k q) := by
  unfold k1_pay1
  refine (Ideal.matmul_constant_zero_apply Cert.KernelIdeal.dot_S5000x128_S128x64_S5000x64_1_0_0_1_n_n none _ x1 (ix2 p q)).trans ?_
  rw [← Equiv.sum_comp (ValueIdx.contrEquiv1 Cert.KernelIdeal.dot_S5000x128_S128x64_S5000x64_1_0_0_1_n_n 128 rfl rfl).symm]
  refine Finset.sum_congr rfl fun k _ => ?_
  have hk := ValueIdx.contrEquiv1_symm_val Cert.KernelIdeal.dot_S5000x128_S128x64_S5000x64_1_0_0_1_n_n 128 rfl rfl k
  have el : Cert.KernelIdeal.dot_S5000x128_S128x64_S5000x64_1_0_0_1_n_n.lhsIdx (ix2 p q) ((ValueIdx.contrEquiv1 Cert.KernelIdeal.dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : Cert.KernelIdeal.dot_S5000x128_S128x64_S5000x64_1_0_0_1_n_n.rhsIdx (ix2 p q) ((ValueIdx.contrEquiv1 Cert.KernelIdeal.dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er, shapeCast_self]
  rfl

/-- Entry (r, j) of the whole product: row r of H, each entry clamped below at zero, against column j of W2. -/
theorem product_entry (h : Cert.Gcn.Feat128 Ideal) (w : (⟨Cert.ReferenceIdeal.S128x64, .f32⟩ : BufTy).Contents (Elt Ideal))
    (i : Cert.ReferenceIdeal.S50000x64.Idx) :
    Cert.Gcn.denseRelu (F := Ideal) h w i
      = ∑ k : Fin 128, max (h (Cert.ReferenceIdeal.ReadP.lidx_main_v51 i k)) (FloatOps.ofBits (F := Ideal) .f32 0x00000000#32) * w (Cert.ReferenceIdeal.ReadP.ridx_main_v51 i k) := by
  -- the product of any left operand with W2, entry by entry
  have key : ∀ y0 : FVec Ideal Cert.ReferenceIdeal.S50000x128 .f32, Host.dotGeneral (F := Ideal) (φ₁ := .f32) (φ₂ := .f32) Cert.ReferenceIdeal.dot_S50000x128_S128x64_S50000x64_1_0_0_1_n_n none y0 w i
      = ∑ k : Fin 128, y0 (Cert.ReferenceIdeal.ReadP.lidx_main_v51 i k) * w (Cert.ReferenceIdeal.ReadP.ridx_main_v51 i k) := by
    intro y0
    simp only [Host.dotGeneral]
    rw [Ideal.dotGeneral_apply, ← Equiv.sum_comp (ValueIdx.contrEquiv1 Cert.ReferenceIdeal.dot_S50000x128_S128x64_S50000x64_1_0_0_1_n_n 128 rfl rfl).symm]
    refine Finset.sum_congr rfl fun k _ => ?_
    have hk := ValueIdx.contrEquiv1_symm_val Cert.ReferenceIdeal.dot_S50000x128_S128x64_S50000x64_1_0_0_1_n_n 128 rfl rfl k
    have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = Cert.ReferenceIdeal.ReadP.lidx_main_v51 i k := funext fun a => Fin.ext (by
      match a with
      | ⟨0, _⟩ => exact Cert.ReferenceIdeal.ReadP.lhs_main_v51_0 _ _
      | ⟨1, _⟩ => exact (Cert.ReferenceIdeal.ReadP.lhs_main_v51_1 _ _).trans hk)
    have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = Cert.ReferenceIdeal.ReadP.ridx_main_v51 i k := funext fun a => Fin.ext (by
      match a with
      | ⟨0, _⟩ => exact (Cert.ReferenceIdeal.ReadP.rhs_main_v51_0 _ _).trans hk
      | ⟨1, _⟩ => exact Cert.ReferenceIdeal.ReadP.rhs_main_v51_1 _ _)
    rw [el, er]
  unfold Cert.Gcn.denseRelu
  refine (key _).trans ?_
  refine Finset.sum_congr rfl fun k _ => ?_
  show max (h (Cert.ReferenceIdeal.ReadP.lidx_main_v51 i k)) (Cert.ReferenceIdeal.ReadP.val_main_call1_v0 (F := Ideal) (Cert.ReferenceIdeal.ReadP.lidx_main_v51 i k)) * _ = _
  rw [Cert.ReferenceIdeal.ReadP.val_main_call1_v0_apply]
  rfl

/-! ## From the blocks to the array -/

/-- Where each window's block sits at grid point t: the window on H and the output's at block t of the rows, all
    columns; the window on W2 at the whole array. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole product max(H, 0) · W2: the block of H it clamps and multiplies
    is the same rows of H, and the block of W2 is all of W2. -/
theorem written_block (c : Dev nD) (t : Fin cfg1.N) :
    (dat1 (F := Ideal) V c).flushed 2 t
      = ((cfg1.win 2).blk t).view.read (Elt Ideal) (Cert.Gcn.denseRelu (F := Ideal) (V c main_v46) (V c main_arg4)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S128x64) zero_offsets]
  obtain ⟨e0, e1, e2, e3, e4, e5⟩ := block_indices t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q)
    = Cert.Gcn.denseRelu (F := Ideal) (V c main_v46) (V c main_arg4) (((cfg1.win 2).blk t).view.emb (ix2 p q))
  refine (block_entry (iblk1 V c 0 t) (iblk1 V c 1 t) p q).trans ?_
  refine Eq.trans ?_ (product_entry (V c main_v46) (V c main_arg4) _).symm
  refine Finset.sum_congr rfl fun k _ => ?_
  have hl : (iblk1 V c 0 t : Vec Ideal S5000x128 .f32) (ix2 p k)
      = (V c main_v46 : Cert.Gcn.Feat128 Ideal) (Cert.ReferenceIdeal.ReadP.lidx_main_v51 (((cfg1.win 2).blk t).view.emb (ix2 p q)) k) := by
    show V c main_v46 (((cfg1.win 0).blk t).view.emb (ix2 p k)) = _
    refine congrArg _ (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  have hr : (iblk1 V c 1 t : Vec Ideal S128x64 .f32) (ix2 k q)
      = (V c main_arg4 : (⟨Cert.ReferenceIdeal.S128x64, .f32⟩ : BufTy).Contents (Elt Ideal)) (Cert.ReferenceIdeal.ReadP.ridx_main_v51 (((cfg1.win 2).blk t).view.emb (ix2 p q)) k) := by
    show V c main_arg4 (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega
  rw [hl, hr]

/-- An entry of the array is in grid point t's block iff each of its coordinates is in the block's range on its axis. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- The ten blocks tile the array: row r is in the block of grid point r / 5000. -/
theorem rows_tiled (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have ht : (i 0).val / 5000 < cfg1.N := by show (i 0).val / 5000 < 10; omega
  obtain ⟨e0, e1, e2, e3, e4, e5⟩ := block_indices ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e5]
    omega

end Dense2

/-- After the ten write-backs the output array is max(H, 0) · W2 of the two input arrays as the region found them. -/
theorem region1_array (c : Dev nD) :
    (dat1 (F := Ideal) V c).arrAt 2 cfg1.N = Cert.Gcn.denseRelu (F := Ideal) (V c main_v46) (V c main_arg4) :=
  (dat1 (F := Ideal) V c).arrAt_eq_of_cover 2 (Cert.Gcn.denseRelu (F := Ideal) (V c main_v46) (V c main_arg4))
    (fun t _ => Dense2.written_block V c t) Dense2.rows_tiled

end Cert.KernelIdeal.Blocks

end
-- ==== Proof.SoftmaxBlocks.lean ====
/-
  The row-wise log-softmax, block by block: a row's maximum, its shifted exponentials' sum and the result depend on that
  row only, so computing them on blocks of 5000 whole rows gives the rows of the whole array's log-softmax.

  Both sides are read at an entry (row, lane) as ONE expression of that row's 64 values (`rowLogSoftmax`): the kernel's
  payload on a block at (p, q) from row p of the block, the reference's stages on the array at (r, q) from row r of the
  array. Row p of the block at grid point t is row 5000·t + p of the array, and the ten blocks cover the 50000 rows.
-/
import proofs.«101313_j68779606278426_1_alg».proof.Proof.Gen.KernelIdeal.Frame
import proofs.«101313_j68779606278426_1_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

namespace Softmax

open Idealize.ShloMosaic.ValueIdx

/-! ## One row -/

/-- The greatest entry of a row of 64, folded from the word for −∞. -/
def rowTop (row : Fin 64 → EReal) : EReal :=
  (Finset.univ : Finset (Fin 64)).fold max (FloatOps.ofBits (F := Ideal) .f32 0xFF800000#32) row

/-- Entry `q` of a row's log-softmax: (row q − top) − log Σ_k exp (row k − top). -/
def rowLogSoftmax (row : Fin 64 → EReal) (q : Fin 64) : EReal :=
  (row q - rowTop row) - Ideal.log (∑ k : Fin 64, Ideal.exp (row k - rowTop row))

/-! ## A block of 5000 rows -/

/-- A vector of 5000 viewed as a column reads the vector at the row. -/
theorem column_apply {α : Type} (v : S5000.Idx → α) (h : S5000.ShapeCasts S5000x1) (p : Fin 5000) (u : Fin 1) :
    shapeCast S5000x1 v h (ix2 p u) = v (ix1 p) :=
  shapeCast_apply v h _ _ (by
    have hu : u.val = 0 := by omega
    rw [Shape.rowMajor_val_two, Shape.rowMajor_val_one]
    show p.val = p.val * 1 + u.val
    omega)

/-- A column spread over the 64 lanes reads the column at the row. -/
theorem spread_apply {α : Type} (w : S5000x1.Idx → α) (h : S5000x1.Broadcasts S5000x64) (p : Fin 5000) (q : Fin 64) :
    broadcastTo S5000x64 w h (ix2 p q) = w (ix2 p (0 : Fin 1)) :=
  broadcastTo_apply w h (ix2 p q) (ix2 p (0 : Fin 1)) fun a =>
    match a with
    | ⟨0, _⟩ => by show p.val = if (5000 : Nat) = 1 then 0 else p.val; rw [if_neg (by decide)]
    | ⟨1, _⟩ => by show 0 = if (1 : Nat) = 1 then 0 else q.val; rw [if_pos rfl]

/-- The lane maximum of a block at row `p` is that row's greatest entry. -/
theorem blockMax_apply (x0 : FVec Ideal S5000x64 .f32) (h : S5000x64.Reduces [1] S5000) (hφ : FKind.Formats .f32)
    (hacc : (0xFF800000#32 : BitVec 32) = 0xFF800000#32) (p : Fin 5000) :
    multiReduction .maximumf [1] S5000 x0 0xFF800000#32 h hφ hacc (ix1 p) = rowTop fun k => x0 (ix2 p k) := by
  refine (Ideal.multiReduction_maximumf_single x0 _ h hφ hacc (ix1 p)).trans ?_
  unfold rowTop
  refine congrArg (Finset.fold max _ · Finset.univ) (funext fun k => ?_)
  exact congrArg x0 (funext fun a => Fin.ext (by match a with | ⟨0, _⟩ => rfl | ⟨1, _⟩ => rfl))

/-- The lane sum of a block at row `p` is the sum of that row's entries. -/
theorem blockSum_apply (y : FVec Ideal S5000x64 .f32) (h : S5000x64.Reduces [1] S5000) (hφ : FKind.Formats .f32)
    (hacc : (0x00000000#32 : BitVec 32) = 0x00000000#32) (p : Fin 5000) :
    multiReduction .add [1] S5000 y 0x00000000#32 h hφ hacc (ix1 p) = ∑ k : Fin 64, y (ix2 p k) := by
  refine (Ideal.multiReduction_add_single y _ h hφ hacc (ix1 p)).trans ?_
  refine Finset.sum_congr rfl fun k _ => ?_
  exact congrArg y (funext fun a => Fin.ext (by match a with | ⟨0, _⟩ => rfl | ⟨1, _⟩ => rfl))

/-- The kernel's payload on a block, at row `p` and lane `q`, is the log-softmax of row `p` of the block. -/
theorem block_apply (x0 : Vec Ideal S5000x64 .f32) (p : Fin 5000) (q : Fin 64) :
    k2_pay1 (F := Ideal) x0 (ix2 p q) = rowLogSoftmax (fun k => x0 (ix2 p k)) q := by
  unfold k2_pay1
  simp only [shapeCast_self]
  rw [subf_apply, subf_apply, spread_apply, spread_apply, column_apply, blockMax_apply]
  show _ - Ideal.log (shapeCast S5000x1 _ _ (ix2 p (0 : Fin 1))) = _
  rw [column_apply, blockSum_apply]
  unfold rowLogSoftmax
  refine congrArg (fun s => _ - Ideal.log s) (Finset.sum_congr rfl fun k _ => ?_)
  show Ideal.exp (subf (F := Ideal) (s := S5000x64) (φ := .f32) x0 _ (ix2 p k)) = _
  rw [subf_apply, spread_apply, column_apply, blockMax_apply]

/-! ## The whole array of 50000 rows -/

/-- A maximum with `b` in front of a fold of maxima that starts from `b` changes nothing. -/
theorem max_fold_self {ι : Type} (s : Finset ι) (b : EReal) (f : ι → EReal) : max b (s.fold max b f) = s.fold max b f :=
  max_eq_right ((Finset.le_fold_max b).2 (Or.inl le_rfl))

/-- A vector of 50000 broadcast to a column reads the vector at the row. -/
theorem refColumn_apply {α : Type} (v : Cert.ReferenceIdeal.S50000.Idx → α)
    (h : Cert.ReferenceIdeal.S50000.BroadcastsInDim Cert.ReferenceIdeal.S50000x1 (![0] : Fin 1 → Fin Cert.ReferenceIdeal.S50000x1.rank))
    (r : Fin 50000) (u : Fin 1) :
    broadcastInDim Cert.ReferenceIdeal.S50000x1 ![0] h v (ix2 r u) = v (ix1 r) :=
  broadcastInDim_apply _ h v (ix2 r u) (ix1 r) fun a =>
    match a with
    | ⟨0, _⟩ => by show r.val = if (50000 : Nat) = 1 then 0 else r.val; rw [if_neg (by decide)]

/-- A column of 50000 broadcast over the 64 lanes reads the column at the row. -/
theorem refSpread_apply {α : Type} (w : Cert.ReferenceIdeal.S50000x1.Idx → α)
    (h : Cert.ReferenceIdeal.S50000x1.BroadcastsInDim Cert.ReferenceIdeal.S50000x64 (![0, 1] : Fin 2 → Fin Cert.ReferenceIdeal.S50000x64.rank))
    (r : Fin 50000) (q : Fin 64) :
    broadcastInDim Cert.ReferenceIdeal.S50000x64 ![0, 1] h w (ix2 r q) = w (ix2 r (0 : Fin 1)) :=
  broadcastInDim_apply _ h w (ix2 r q) (ix2 r (0 : Fin 1)) fun a =>
    match a with
    | ⟨0, _⟩ => by show r.val = if (50000 : Nat) = 1 then 0 else r.val; rw [if_neg (by decide)]
    | ⟨1, _⟩ => by show 0 = if (1 : Nat) = 1 then 0 else q.val; rw [if_pos rfl]

/-- The reference's row maximum at row `r` (the reduction from −∞, then once more the maximum with −∞) is that row's
    greatest entry. -/
theorem refMax_apply (x : FVec Ideal Cert.ReferenceIdeal.S50000x64 .f32)
    (h' : Cert.ReferenceIdeal.S50000x64.ReducesTo [1] Cert.ReferenceIdeal.S50000) (hu : 0 < Cert.ReferenceIdeal.S_.numel) (r : Fin 50000) :
    maximumf (Cert.ReferenceIdeal.ReadP.val_main_call3_v1 (F := Ideal))
        (Host.reduce FloatOps.maximumf x (Cert.ReferenceIdeal.ReadP.val_main_call3_cst (F := Ideal)) h' hu) (ix1 r)
      = rowTop fun k => x (ix2 r k) := by
  have e1 : Cert.ReferenceIdeal.ReadP.val_main_call3_v1 (F := Ideal) (ix1 r) = FloatOps.ofBits (F := Ideal) .f32 0xFF800000#32 := rfl
  have hred : Cert.ReferenceIdeal.S50000x64.Reduces [1] Cert.ReferenceIdeal.S50000 := by decide
  rw [maximumf_apply, e1, Host.reduce_eq_fold_single FloatOps.maximumf x _ h' hred hu (ix1 r)]
  refine Eq.trans (b := (Finset.univ : Finset (Fin 64)).fold max (FloatOps.ofBits (F := Ideal) .f32 0xFF800000#32) (x ∘ hred.lift (ix1 r)))
    (max_fold_self Finset.univ _ _) ?_
  unfold rowTop
  refine congrArg (Finset.fold max _ · Finset.univ) (funext fun k => ?_)
  exact congrArg x (funext fun a => Fin.ext (by match a with | ⟨0, _⟩ => rfl | ⟨1, _⟩ => rfl))

/-- The reference's row sum at row `r` (from the initial value zero) is the sum of that row's entries. -/
theorem refSum_apply (y : FVec Ideal Cert.ReferenceIdeal.S50000x64 .f32)
    (h' : Cert.ReferenceIdeal.S50000x64.ReducesTo [1] Cert.ReferenceIdeal.S50000) (hu : 0 < Cert.ReferenceIdeal.S_.numel) (r : Fin 50000) :
    Host.reduceAdd y (Cert.ReferenceIdeal.ReadP.val_main_call3_cst_1 (F := Ideal)) h' hu (ix1 r) = ∑ k : Fin 64, y (ix2 r k) := by
  have e0 : Cert.ReferenceIdeal.ReadP.val_main_call3_cst_1 (F := Ideal) (Shape.Idx.first hu) = 0 := Ideal.ofBits_zero_f32
  have hred : Cert.ReferenceIdeal.S50000x64.Reduces [1] Cert.ReferenceIdeal.S50000 := by decide
  simp only [Host.reduceAdd, Ideal.hostReduceAdd_def]
  rw [Ideal.hostReduceAdd_single h' hred, e0, zero_add]
  refine Finset.sum_congr rfl fun k _ => ?_
  exact congrArg y (funext fun a => Fin.ext (by match a with | ⟨0, _⟩ => rfl | ⟨1, _⟩ => rfl))

/-- The host's exponential and logarithm at an entry are the extended reals'. -/
theorem hostExp_apply {s : Shape} (w : FVec Ideal s .f32) (i : s.Idx) : Host.exp w i = Ideal.exp (w i) := rfl
theorem hostLog_apply {s : Shape} (w : FVec Ideal s .f32) (i : s.Idx) : Host.log w i = Ideal.log (w i) := rfl

/-- The reference's log-softmax of the array, at row `r` and lane `q`, is the log-softmax of row `r` of the array. -/
theorem array_apply (x : Cert.Gcn.Feat64 Ideal) (r : Fin 50000) (q : Fin 64) :
    Cert.Gcn.logSoftmaxRows (F := Ideal) x (ix2 r q) = rowLogSoftmax (fun k => x (ix2 r k)) q := by
  have hM : ∀ k : Fin 64, Cert.Gcn.rowMax (F := Ideal) x (ix2 r k) = rowTop fun k' => x (ix2 r k') := fun k => by
    unfold Cert.Gcn.rowMax
    rw [refSpread_apply, refColumn_apply, refMax_apply]
  unfold Cert.Gcn.logSoftmaxRows
  rw [subf_apply, subf_apply, hM, refSpread_apply, hostLog_apply, refColumn_apply, refSum_apply]
  unfold rowLogSoftmax
  refine congrArg (fun s => _ - Ideal.log s) (Finset.sum_congr rfl fun k _ => ?_)
  rw [hostExp_apply, subf_apply, hM]

/-! ## From the ten blocks to the array -/

theorem zero_offsets : (![0, 0] : Fin 2 → Nat) = fun _ => 0 := funext fun a => by fin_cases a <;> rfl

/-- The printed index maps, decided over the ten grid points: at point `t` both windows sit at block `t` of the rows and
    block 0 of the lanes. -/
theorem block_index : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row `p` of the block at point `t` is a row of the array. -/
theorem row_lt (t : Fin cfg2.N) (p : Fin 5000) : 5000 * t.val + p.val < 50000 := by
  have ht : t.val < 10 := Nat.lt_of_lt_of_eq t.isLt N_2
  omega

/-- What point `t` writes back is block `t` of the row-wise log-softmax of the input array as the region found it. -/
theorem flushed_eq (c : Dev nD) (t : Fin cfg2.N) :
    (dat2 (F := Ideal) V c).flushed 1 t
      = ((cfg2.win 1).blk t).view.read (Elt Ideal) (Cert.Gcn.logSoftmaxRows (F := Ideal) (V c main_v63)) := by
  show (cfg2.win 1).cut (grid2.coords t) ((dat2 (F := Ideal) V c).after 1 t) = _
  rw [after2_1]
  unfold out2_1
  rw [View.canon_unit_zero zero_offsets]
  simp only [View.ld_unit_zero (S := S5000x64) zero_offsets]
  obtain ⟨e0, e1, e2, e3⟩ := block_index t
  funext j
  obtain ⟨p, q, rfl⟩ : ∃ (p : Fin 5000) (q : Fin 64), j = ix2 p q := ⟨j 0, j 1, eq_ix2 j⟩
  -- the output block's entry (p, q) sits at (5000·t + p, q) of the array
  have hout : ((cfg2.win 1).blk t).view.emb (ix2 p q) = ix2 (⟨5000 * t.val + p.val, row_lt t p⟩ : Fin 50000) q := by
    funext a; apply Fin.ext
    match a with
    | ⟨0, _⟩ => show win2_1.index t (0 : Fin 2) * 5000 + 1 * p.val = 5000 * t.val + p.val; omega
    | ⟨1, _⟩ => show win2_1.index t (1 : Fin 2) * 64 + 1 * q.val = q.val; omega
  -- and so does the input block's entry (p, k)
  have hin : ∀ k : Fin 64, iblk2 V c 0 t (ix2 p k) = V c main_v63 (ix2 (⟨5000 * t.val + p.val, row_lt t p⟩ : Fin 50000) k) := fun k => by
    show V c main_v63 (((cfg2.win 0).blk t).view.emb (ix2 p k)) = V c main_v63 _
    refine congrArg (V c main_v63) (funext fun a => Fin.ext ?_)
    match a with
    | ⟨0, _⟩ => show win2_0.index t (0 : Fin 2) * 5000 + 1 * p.val = 5000 * t.val + p.val; omega
    | ⟨1, _⟩ => show win2_0.index t (1 : Fin 2) * 64 + 1 * k.val = k.val; omega
  show k2_pay1 (F := Ideal) (iblk2 V c 0 t) (ix2 p q)
    = Cert.Gcn.logSoftmaxRows (F := Ideal) (V c main_v63) (((cfg2.win 1).blk t).view.emb (ix2 p q))
  refine (block_apply _ p q).trans ?_
  refine Eq.trans ?_ (congrArg (Cert.Gcn.logSoftmaxRows (F := Ideal) (V c main_v63)) hout.symm)
  refine Eq.trans ?_ (array_apply _ _ q).symm
  exact congrArg (fun row => rowLogSoftmax row q) (funext hin)

/-- An index of the array is in point `t`'s block iff each coordinate is in the block's range on its axis. -/
theorem mem_block (t : Fin cfg2.N) (i : S50000x64.Idx) :
    i ∈ ((cfg2.win 1).blk t).view.set
      ↔ ∀ a : Fin 2, win2_1.index t a * S5000x64.size a ≤ (i a).val ∧ (i a).val < win2_1.index t a * S5000x64.size a + S5000x64.size a := by
  show i ∈ ((View.whole main_v64).slice (win2_1.rect t)).set ↔ _
  rw [View.set_slice_whole, Rect.mem_set_unit]
  exact Iff.rfl

/-- Every index of the array is in some point's block: row `r` in the block of point `r / 5000`. -/
theorem covered (i : S50000x64.Idx) : ∃ t : Fin cfg2.N, (cfg2.win 1).flush t = true ∧ i ∈ ((cfg2.win 1).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by rw [show cfg2.N = 10 from N_2]; omega⟩, rfl⟩
  obtain ⟨e0, e1, e2, e3⟩ := block_index t
  refine ⟨t, flush2_1 t, ?_⟩
  rw [mem_block]
  intro a
  match a with
  | ⟨0, _⟩ =>
    show win2_1.index t (0 : Fin 2) * 5000 ≤ (i 0).val ∧ (i 0).val < win2_1.index t (0 : Fin 2) * 5000 + 5000
    omega
  | ⟨1, _⟩ =>
    show win2_1.index t (1 : Fin 2) * 64 ≤ (i 1).val ∧ (i 1).val < win2_1.index t (1 : Fin 2) * 64 + 64
    omega

end Softmax

/-- After the ten write-backs the output array is the row-wise log-softmax of the input array as the region found it. -/
theorem region2_array (c : Dev nD) :
    (dat2 (F := Ideal) V c).arrAt 1 cfg2.N = Cert.Gcn.logSoftmaxRows (F := Ideal) (V c main_v63) :=
  (dat2 (F := Ideal) V c).arrAt_eq_of_cover 1 (Cert.Gcn.logSoftmaxRows (F := Ideal) (V c main_v63))
    (fun t _ => Softmax.flushed_eq V c t) Softmax.covered

end Cert.KernelIdeal.Blocks

end
-- ==== Proof.Network.lean ====
/-
  The kernel program's result as the composition of the network's stages: each region's output array is its dense stage of
  what the region found (the three block lemmas), each host stretch is an aggregation of the region's output (the host
  stages), and the composition is the reference's last stage.
-/
import proofs.«101313_j68779606278426_1_alg».proof.Proof.HostStages
import proofs.«101313_j68779606278426_1_alg».proof.Proof.DenseBlocks1
import proofs.«101313_j68779606278426_1_alg».proof.Proof.DenseBlocks2
import proofs.«101313_j68779606278426_1_alg».proof.Proof.SoftmaxBlocks

set_option maxRecDepth 16384

noncomputable section

namespace Cert.KernelIdeal.Network

open Cert.KernelIdeal Cert.KernelIdeal.Gen Idealize.ShloMosaic Idealize.ShloMosaic.TcCoe Idealize.SL.Sem
open Cert.ReferenceIdeal.ReadP Cert.Gcn Cert.KernelIdeal.HostStages Cert.KernelIdeal.Blocks

variable (m : (ℓ : Loc nD τ sig) → Buf (Elt Ideal) ℓ) (ρ : Dev nD → PrngReg) (c : Dev nD)

/-- After the first region: x · W1. -/
theorem W4_v30 : W4 m ρ c (Proc.devRef .tc main_v30)
    = dense1 (F := Ideal) (m ((c : Thread nD τ).loc main_arg0)) (m ((c : Thread nD τ).loc main_arg2)) := by
  have h : W4 m ρ c (Proc.devRef .tc main_v30) = (dat0 (V3 m ρ) c).arrAt 2 cfg0.N := W4_arr m ρ c 2
  rw [h, region0_array, V3_arg0, V3_arg2]

/-- After the second region: max(agg1, 0) · W2. -/
theorem W6_v47 : W6 m ρ c (Proc.devRef .tc main_v47)
    = denseRelu (F := Ideal) (aggregate128 (F := Ideal) (dense1 (F := Ideal) (m ((c : Thread nD τ).loc main_arg0)) (m ((c : Thread nD τ).loc main_arg2)))
        (m ((c : Thread nD τ).loc main_arg1)) (m ((c : Thread nD τ).loc main_arg3))) (m ((c : Thread nD τ).loc main_arg4)) := by
  have h : W6 m ρ c (Proc.devRef .tc main_v47) = (dat1 (V5 m ρ) c).arrAt 2 cfg1.N := W6_arr m ρ c 2
  have h46 : V5 m ρ c main_v46 = W5 m ρ c (Proc.devRef .tc main_v46) := rfl
  rw [h, region1_array, V5_arg4, h46, W5_v46, W4_v30]

/-- After the third region: the reference's last stage of the launch arrays. -/
theorem W8_v64 : W8 m ρ c (Proc.devRef .tc main_v64)
    = val_main_v91 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h : W8 m ρ c (Proc.devRef .tc main_v64) = (dat2 (V7 m ρ) c).arrAt 1 cfg2.N := W8_arr m ρ c 1
  have h63 : V7 m ρ c main_v63 = W7 m ρ c (Proc.devRef .tc main_v63) := rfl
  rw [network_eq, h, region2_array, h63, W7_v63, W6_v47]

end Cert.KernelIdeal.Network

end
-- ==== Proof.lean ====
/-
  A two-layer graph convolution with a row-wise log-softmax, its two dense products and the log-softmax computed by
  kernels on blocks of 5000 rows, against the same network written with whole-array operations.

  Both programs build the same edge lists and norms from the edge list by the same host operations and aggregate over them
  in the same way; they differ only in how the dense stages are computed. A dense product of a row block with the whole
  weight matrix is the corresponding rows of the whole product, and the log-softmax of a block of whole rows is the
  corresponding rows of the whole array's: so each region's output array is the reference's dense stage of the array the
  region found, and by induction along the program the kernel's result is the reference's last stage of the arguments.
  The only facts about the extended reals used are that a matrix product's entry and a row's sum are finite sums over the
  same index on both sides, and that a maximum with −∞ in front of a fold of maxima that starts from −∞ changes nothing
  (the reference takes it once more); the precondition is not opened. The ideal pass rewrote nothing, so `preserves` is
  trivial.
-/
import proofs.«101313_j68779606278426_1_alg».proof.Defs
import proofs.«101313_j68779606278426_1_alg».proof.Proof.Gen.Kernel
import proofs.«101313_j68779606278426_1_alg».proof.Proof.Gen.Kernel.Frame
import proofs.«101313_j68779606278426_1_alg».proof.Proof.Gen.KernelIdeal
import proofs.«101313_j68779606278426_1_alg».proof.Proof.Gen.KernelIdeal.Frame
import proofs.«101313_j68779606278426_1_alg».proof.Proof.Gen.ReferenceIdeal
import proofs.«101313_j68779606278426_1_alg».proof.Proof.Gen.Pre_finite_inputs
import proofs.«101313_j68779606278426_1_alg».proof.Proof.RunResult
import proofs.«101313_j68779606278426_1_alg».proof.Proof.RefStagesRun
import proofs.«101313_j68779606278426_1_alg».proof.Proof.Network
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.StagesRun.run (F := Ideal) m ρ)

/-- Both runs end with the result at the reference's last stage of the (agreeing) arguments. -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v64),
    Cert.KernelIdeal.Gen.run_result m ρ, ?_⟩
  refine (θ_run Cert.ReferenceIdeal.defs _ _).mono (fun _ h c => ⟨(h c).1.trans ?_, (h c).2⟩)
    (Cert.ReferenceIdeal.StagesRun.run (F := Ideal) m' ρ')
  rw [(hagree c).1, (hagree c).2.1, (hagree c).2.2.1, (hagree c).2.2.2.1,
    (hagree c).2.2.2.2.1, (hagree c).2.2.2.2.2]
  exact (Cert.KernelIdeal.Network.W8_v64 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
